-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S8x128x2048 : Shape := ⟨3, ![8, 128, 2048]⟩
abbrev S8x128 : Shape := ⟨2, ![8, 128]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x128x2048 : S_.BroadcastsInDim S8x128x2048 (![] : Fin 0 → Fin S8x128x2048.rank)
  reducesTo_S8x128x2048_S_d0_1_2 : S8x128x2048.ReducesTo [0, 1, 2] S_
  bcast_S_S8x128 : S_.BroadcastsInDim S8x128 (![] : Fin 0 → Fin S8x128.rank)
  reducesTo_S8x128_S_d0_1 : S8x128.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .slt main_arg1 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  main_v20

def fn {F : FTy → Type} [FloatOps F] (main_arg0 : FVec F S16384x2048 .f32) (main_arg1 : IVec S16384 32) (main_arg2 : FVec F S8x128x2048 .f32) (main_arg3 : FVec F S8x128 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x128x2048 .f32 := Host.absf main_arg2
  let main_cst_0 : FVec F S_ .f32 := constant S_ .f32 0x7F800000#32
  let main_v5 : FVec F S8x128x2048 .f32 := broadcastInDim S8x128x2048 ![] bcast_S_S8x128x2048 main_cst_0
  let main_v6 : IVec S8x128x2048 1 := cmpf .olt main_v4 main_v5
  let main_c_1 : IVec S_ 1 := constantI S_ 1 1#1
  let main_v7 : IVec S_ 1 := (fun x v => Host.reduce IntOp.andi x v reducesTo_S8x128x2048_S_d0_1_2 h_S_) main_v6 main_c_1
  let main_v8 : IVec S_ 1 := andi main_v3 main_v7
  let main_v9 : FVec F S8x128 .f32 := Host.absf main_arg3
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg1 main_v14
  let main_c_5 : IVec S_ 32 := constantI S_ 32 8#32
  fn_part1 (F := F) main_arg1 main_v13 main_v15 main_c_5
-- ==== Kernel.lean ====
abbrev S16384x2048 : Shape := ⟨2, ![16384, 2048]⟩
abbrev S16384 : Shape := ⟨1, ![16384]⟩
abbrev S8x128x2048 : Shape := ⟨3, ![8, 128, 2048]⟩
abbrev S8x128 : Shape := ⟨2, ![8, 128]⟩
abbrev S_ : Shape := ⟨0, ![]⟩
abbrev S16384x1 : Shape := ⟨2, ![16384, 1]⟩
abbrev S1024x2048 : Shape := ⟨2, ![1024, 2048]⟩
abbrev S2048x1024 : Shape := ⟨2, ![2048, 1024]⟩
abbrev S16384x128 : Shape := ⟨2, ![16384, 128]⟩
abbrev S1024x1 : Shape := ⟨2, ![1024, 1]⟩
abbrev S1024x128 : Shape := ⟨2, ![1024, 128]⟩
abbrev S1024x1024 : Shape := ⟨2, ![1024, 1024]⟩
abbrev S1024x8 : Shape := ⟨2, ![1024, 8]⟩

abbrev nBuf : Space → Nat
  | .hbm => 18
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S8x128x2048, .f32⟩
  | .hbm, ⟨3, _⟩ => ⟨S8x128, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1024x2048, .f32⟩
  | .hbm, ⟨14, _⟩ => ⟨S2048x1024, .f32⟩
  | .hbm, ⟨15, _⟩ => ⟨S2048x1024, .bf16⟩
  | .hbm, ⟨16, _⟩ => ⟨S8x128, .bf16⟩
  | .hbm, ⟨17, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1024x1, .i32⟩
  | .local _ .vmem, ⟨3, _⟩ => ⟨S1024x1, .i32⟩
  | .local _ .vmem, ⟨4, _⟩ => ⟨S2048x1024, .bf16⟩
  | .local _ .vmem, ⟨5, _⟩ => ⟨S8x128, .bf16⟩
  | .local _ .vmem, ⟨6, _⟩ => ⟨S1024x128, .f32⟩
  | .local _ .vmem, ⟨7, _⟩ => ⟨S1024x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S16384 : S_.BroadcastsInDim S16384 (![] : Fin 0 → Fin S16384.rank)
  shapeCasts_S16384_S16384x1 : S16384.ShapeCasts S16384x1
  shapeCasts_S8x128x2048_S1024x2048 : S8x128x2048.ShapeCasts S1024x2048
  transposes_S1024x2048_S2048x1024_1_0 : S1024x2048.Transposes [1, 0] S2048x1024
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d1_w32 : S1024x1024.Iotas .tc 32 [1]
  natLt_1_32 : 1 < 32
  broadcasts_S1024x1_S1024x1024 : S1024x1.Broadcasts S1024x1024
  iota_S1024x8_d1_w32 : S1024x8.Iotas .tc 32 [1]
  broadcasts_S1024x1_S1024x8 : S1024x1.Broadcasts S1024x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  slices_S1024x1024_o0_0_S1024x128 : S1024x1024.Slices ![0, 0] S1024x128
  slices_S1024x1024_o0_128_S1024x128 : S1024x1024.Slices ![0, 128] S1024x128
  slices_S1024x1024_o0_256_S1024x128 : S1024x1024.Slices ![0, 256] S1024x128
  slices_S1024x1024_o0_384_S1024x128 : S1024x1024.Slices ![0, 384] S1024x128
  slices_S1024x1024_o0_512_S1024x128 : S1024x1024.Slices ![0, 512] S1024x128
  slices_S1024x1024_o0_640_S1024x128 : S1024x1024.Slices ![0, 640] S1024x128
  slices_S1024x1024_o0_768_S1024x128 : S1024x1024.Slices ![0, 768] S1024x128
  slices_S1024x1024_o0_896_S1024x128 : S1024x1024.Slices ![0, 896] S1024x128
  inb_S1024x128_S1024x128_0_0 : ∀ a, (![0, 0] : Fin 2 → Nat) a + S1024x128.size a ≤ S1024x128.size a
  h_S1024x128 : 0 < S1024x128.numel
  dot_S1024x2048_S2048x1024_S1024x1024_1_0_0_1_n_n_wf : DotDims.WF S1024x2048 S2048x1024 S1024x1024 [1] [0] [0] [1] [] []
  dot_S1024x8_S8x128_S1024x128_1_0_0_1_n_n_wf : DotDims.WF S1024x8 S8x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .i32 = 32 ∨ (Rect.block (s := S16384x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .bf16 = 32 ∨ (Rect.block (s := S8x128) S8x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S16384x128.size a
  hwx0_4 : ∀ i : grid0.Coords, EltTy.bits .f32 = 32 ∨ (Rect.block (s := S16384x128) S1024x128.size (cc0_transform_4 i) (hinb0_4 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x8_S8x128_S1024x128_1_0_0_1_n_n : DotDims S1024x8 S8x128 S1024x128 where
  lhsContracting := [1]
  rhsContracting := [0]
  lhsNonContracting := [0]
  rhsNonContracting := [1]
  lhsBatch := []
  rhsBatch := []
  wf := dot_S1024x8_S8x128_S1024x128_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384 : Shape := ⟨1, ![16384]⟩
abbrev S8x128x2048 : Shape := ⟨3, ![8, 128, 2048]⟩
abbrev S8x128 : Shape := ⟨2, ![8, 128]⟩
abbrev S16384x8x128 : Shape := ⟨3, ![16384, 8, 128]⟩
abbrev S1x8x128 : Shape := ⟨3, ![1, 8, 128]⟩
abbrev S16384x1x1 : Shape := ⟨3, ![16384, 1, 1]⟩
abbrev S_ : Shape := ⟨0, ![]⟩
abbrev S1 : Shape := ⟨1, ![1]⟩
abbrev S1x1x1 : Shape := ⟨3, ![1, 1, 1]⟩
abbrev S16384x1 : Shape := ⟨2, ![16384, 1]⟩
abbrev S16384x1x128 : Shape := ⟨3, ![16384, 1, 128]⟩
abbrev S16384x128 : Shape := ⟨2, ![16384, 128]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S8x128x2048, .f32⟩
  | .hbm, ⟨3, _⟩ => ⟨S8x128, .f32⟩
  | .hbm, ⟨4, _⟩ => ⟨S16384x8x128, .f32⟩
  | .hbm, ⟨5, _⟩ => ⟨S1x8x128, .f32⟩
  | .hbm, ⟨6, _⟩ => ⟨S16384x8x128, .f32⟩
  | .hbm, ⟨7, _⟩ => ⟨S16384x8x128, .f32⟩
  | .hbm, ⟨8, _⟩ => ⟨S16384x1x1, .i32⟩
  | .hbm, ⟨9, _⟩ => ⟨S_, .i32⟩
  | .hbm, ⟨10, _⟩ => ⟨S16384x1x1, .i32⟩
  | .hbm, ⟨11, _⟩ => ⟨S16384x1x1, .i1⟩
  | .hbm, ⟨12, _⟩ => ⟨S_, .i32⟩
  | .hbm, ⟨13, _⟩ => ⟨S16384x1x1, .i32⟩
  | .hbm, ⟨14, _⟩ => ⟨S16384x1x1, .i32⟩
  | .hbm, ⟨15, _⟩ => ⟨S16384x1x1, .i32⟩
  | .hbm, ⟨16, _⟩ => ⟨S1, .i32⟩
  | .hbm, ⟨17, _⟩ => ⟨S_, .i32⟩
  | .hbm, ⟨18, _⟩ => ⟨S16384x1x1, .i32⟩
  | .hbm, ⟨19, _⟩ => ⟨S16384x1x1, .i1⟩
  | .hbm, ⟨20, _⟩ => ⟨S1x1x1, .i32⟩
  | .hbm, ⟨21, _⟩ => ⟨S16384x1x1, .i32⟩
  | .hbm, ⟨22, _⟩ => ⟨S16384x1x1, .i1⟩
  | .hbm, ⟨23, _⟩ => ⟨S16384x1x1, .i1⟩
  | .hbm, ⟨24, _⟩ => ⟨S_, .i1⟩
  | .hbm, ⟨25, _⟩ => ⟨S16384x1, .i1⟩
  | .hbm, ⟨26, _⟩ => ⟨S16384x1x128, .f32⟩
  | .hbm, ⟨27, _⟩ => ⟨S16384x1x128, .i1⟩
  | .hbm, ⟨28, _⟩ => ⟨S_, .f32⟩
  | .hbm, ⟨29, _⟩ => ⟨S16384x1x128, .f32⟩
  | .hbm, ⟨30, _⟩ => ⟨S16384x1x128, .f32⟩
  | .hbm, ⟨31, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]

class Facts₀ : Prop where
  bcast_S8x128_S1x8x128_1_2 : S8x128.BroadcastsInDim S1x8x128 (![1, 2] : Fin 2 → Fin S1x8x128.rank)
  bcast_S1x8x128_S16384x8x128_0_1_2 : S1x8x128.BroadcastsInDim S16384x8x128 (![0, 1, 2] : Fin 3 → Fin S16384x8x128.rank)
  bcast_S16384_S16384x1x1_0 : S16384.BroadcastsInDim S16384x1x1 (![0] : Fin 1 → Fin S16384x1x1.rank)
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  bcast_S16384x1_S16384x1x128_0_1 : S16384x1.BroadcastsInDim S16384x1x128 (![0, 1] : Fin 2 → Fin S16384x1x128.rank)
  bcast_S_S16384x1x128 : S_.BroadcastsInDim S16384x1x128 (![] : Fin 0 → Fin S16384x1x128.rank)
  shapeCasts_S16384x1x128_S16384x128 : S16384x1x128.ShapeCasts S16384x128
  dot_S16384x2048_S8x128x2048_S16384x8x128_1_2_0_01_n_n_wf : DotDims.WF S16384x2048 S8x128x2048 S16384x8x128 [1] [2] [0] [0, 1] [] []
  gather_S16384x8x128_S16384x1x1_S16384x1x128_2_1_0_0_1_2_11128_wf : GatherDims.WF S16384x8x128 S16384x1x1 S16384x1x128 [2] [1] [0] [1] [0] 2 ![1, 1, 128]

variable [Facts₀]

def dot_S16384x2048_S8x128x2048_S16384x8x128_1_2_0_01_n_n : DotDims S16384x2048 S8x128x2048 S16384x8x128 where
  lhsContracting := [1]
  rhsContracting := [2]
  lhsNonContracting := [0]
  rhsNonContracting := [0, 1]
  lhsBatch := []
  rhsBatch := []
  wf := dot_S16384x2048_S8x128x2048_S16384x8x128_1_2_0_01_n_n_wf
def gather_S16384x8x128_S16384x1x1_S16384x1x128_2_1_0_0_1_2_11128 : GatherDims S16384x8x128 S16384x1x1 S16384x1x128 where
  offsetDims := [2]
  collapsedSliceDims := [1]
  operandBatchingDims := [0]
  startIndicesBatchingDims := [0]
  startIndexMap := [1]
  indexVectorDim := 2
  sliceSizes := ![1, 1, 128]
  wf := gather_S16384x8x128_S16384x1x1_S16384x1x128_2_1_0_0_1_2_11128_wf

class Facts : Prop extends Facts₀ where

variable [Facts]
-- ==== Proof.Spec.lean ====
/-
  The specification. What both programs compute, as one function of the four argument arrays.

  `h` holds 16384 feature rows of length 2048, `y` a domain label per row, `W` eight 128 × 2048 projection matrices
  (one per domain) and `b` eight bias rows of length 128. Row `r` of the result is the projection of `h r` by its own
  domain's matrix plus that domain's bias:
    result (r, s) = (∑ d, h (r, d) · W (y r, s, d)) + b (y r, s).
  A label is read as a `Fin 8` through its unsigned value; the programs agree with this function where every label is
  in range, `(y r).toNat < 8`.
-/
import Idealize.ShloMosaic.PureOps.Ideal
import Idealize.ShloMosaic.Lib.ValueIdx

noncomputable section

namespace Cert.Moe

open Idealize.ShloMosaic Idealize.ShloMosaic.ValueIdx
open scoped BigOperators

/-- Every label names one of the eight domains. -/
def InRange (y : (⟨1, ![16384]⟩ : Shape).Idx → BitVec 32) : Prop := ∀ r : Fin 16384, (y (ix1 r)).toNat < 8

/-- Row `r`'s domain. -/
def dom (y : (⟨1, ![16384]⟩ : Shape).Idx → BitVec 32) (r : Fin 16384) : Fin 8 :=
  ⟨(y (ix1 r)).toNat % 8, Nat.mod_lt _ (by decide)⟩

/-- In range, the label is the numeral of the row's domain. -/
theorem label_eq (y : (⟨1, ![16384]⟩ : Shape).Idx → BitVec 32) (hy : InRange y) (r : Fin 16384) :
    y (ix1 r) = BitVec.ofNat 32 ((dom y r : Fin 8) : Nat) := by
  apply BitVec.eq_of_toNat_eq
  have := hy r
  simp only [dom, BitVec.toNat_ofNat]
  omega

/-- The selected head's output. -/
def G (h : (⟨2, ![16384, 2048]⟩ : Shape).Idx → EReal) (y : (⟨1, ![16384]⟩ : Shape).Idx → BitVec 32)
    (W : (⟨3, ![8, 128, 2048]⟩ : Shape).Idx → EReal) (b : (⟨2, ![8, 128]⟩ : Shape).Idx → EReal) :
    (⟨2, ![16384, 128]⟩ : Shape).Idx → EReal :=
  fun i => (∑ d : Fin 2048, h (ix2 (i 0) d) * W (ix3 (dom y (i 0)) (i 1) d)) + b (ix2 (dom y (i 0)) (i 1))

theorem G_apply (h : (⟨2, ![16384, 2048]⟩ : Shape).Idx → EReal) (y : (⟨1, ![16384]⟩ : Shape).Idx → BitVec 32)
    (W : (⟨3, ![8, 128, 2048]⟩ : Shape).Idx → EReal) (b : (⟨2, ![8, 128]⟩ : Shape).Idx → EReal) (r : Fin 16384) (s : Fin 128) :
    G h y W b (ix2 r s) = (∑ d : Fin 2048, h (ix2 r d) * W (ix3 (dom y r) s d)) + b (ix2 (dom y r) s) := rfl

end Cert.Moe

end
-- ==== Proof.Words.lean ====
/-
  Words. The integer side of the kernel and of the reference, one 32-bit word at a time.

  A row's domain label is a word `w` with `0 ≤ w < 8` (signed), that is `w = k` for a `k : Fin 8`. On such a word
  the kernel's clamp into `[0, 7]` is the identity, the reference's wrap of a negative index does nothing, its range
  test passes and its clamped read index is `k`. The kernel's lane-to-domain map sends lane `c < 1024` of the
  `8 · 128` product columns to `c / 128` (a floor division written with a truncating one and a correction that
  never fires on non-negative lanes), and a lane's domain equals the row's label exactly when the two numbers agree.
-/
import Idealize.ShloMosaic.PureOps

namespace Cert.Moe.Words

open Idealize.ShloMosaic

/-- A word whose unsigned value is below 8 is the numeral of a `Fin 8`. -/
theorem eq_ofNat_of_lt (w : BitVec 32) (h : w.toNat < 8) : w = BitVec.ofNat 32 ((⟨w.toNat, h⟩ : Fin 8) : Nat) := by
  apply BitVec.eq_of_toNat_eq
  simp [BitVec.toNat_ofNat]

/-- A word in `[0, 8)` read signed has an unsigned value below 8. -/
theorem toNat_lt_of_signed (w : BitVec 32) (h0 : IntOp.cmpi .sge w 0#32 = 1#1) (h8 : IntOp.cmpi .slt w 8#32 = 1#1) :
    w.toNat < 8 := by
  unfold IntOp.cmpi at h0 h8
  have e : ∀ b : Bool, BitVec.ofBool b = 1#1 ↔ b = true := by decide
  rw [e] at h0 h8
  simp only [BitVec.slt, BitVec.sle, decide_eq_true_eq] at h0 h8
  have h32 := w.isLt
  unfold BitVec.toInt at h0 h8
  split at h8 <;> simp at h0 h8 <;> omega

/-- The clamp into `[0, 7]` fixes the labels. -/
theorem clip_label : ∀ k : Fin 8, IntOp.minsi 7#32 (IntOp.maxsi 0#32 (BitVec.ofNat 32 k)) = BitVec.ofNat 32 k := by decide

/-- A label is not negative, so the wrap of negative indices leaves it alone. -/
theorem wrap_label : ∀ k : Fin 8,
    Scalar.select (IntOp.cmpi .slt (BitVec.ofNat 32 k) 0#32) (IntOp.addi (BitVec.ofNat 32 k) 8#32) (BitVec.ofNat 32 k)
      = BitVec.ofNat 32 k := by decide

/-- A label passes the range test `0 ≤ · ≤ 7`. -/
theorem inrange_label : ∀ k : Fin 8,
    IntOp.andi (IntOp.cmpi .sge (BitVec.ofNat 32 k) 0#32) (IntOp.cmpi .sle (BitVec.ofNat 32 k) 7#32) = 1#1 := by decide

/-- Read signed and clamped to the last domain, a label is itself. -/
theorem clamp_label : ∀ k : Fin 8, min (BitVec.ofNat 32 (k : Nat)).toInt.toNat 7 = (k : Nat) := by decide

/-- Two labels are the same word exactly when they are the same number. -/
theorem eq_label : ∀ j k : Fin 8, IntOp.cmpi .eq (BitVec.ofNat 32 (j : Nat)) (BitVec.ofNat 32 (k : Nat)) = if j = k then 1#1 else 0#1 := by
  decide

/-- The lane-to-domain map of the kernel on one lane word: the truncating quotient by 128, lowered by one where the
    signs of lane and divisor differ and the remainder is not zero. -/
def laneDomain (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 128#32 0#32)) (Scalar.extui (Scalar.cmpi .slt 128#32 0#32))))
      (IntOp.cmpi .ne (IntOp.remsi .vector x 128#32) 0#32))
    (IntOp.subi (IntOp.divsi .vector x 128#32) 1#32)
    (IntOp.divsi .vector x 128#32)

/-- On the 1024 lanes it is the quotient by 128: the lane's domain. -/
theorem laneDomain_lane : ∀ c : Fin 1024, laneDomain (BitVec.ofNat 32 (0 * 1024 + (c : Nat))) = BitVec.ofNat 32 ((c : Nat) / 128) := by
  decide +kernel

end Cert.Moe.Words
-- ==== Proof.RefValue.lean ====
/-
  The reference's value. The reference projects every row by all eight domains' matrices, adds the biases, and then
  takes, for row `r`, the slab of its own domain along the domain axis (`take_along_axis`): a gather whose start index
  is the row's label, wrapped if negative and clamped into `[0, 7]`, under a select that replaces the row by NaN when
  the wrapped label is outside `[0, 7]`. Where every label is in range the wrap does nothing, the range test passes,
  the clamp is the identity, and the result at `(r, s)` is
    (∑ d, h (r, d) · W (y r, s, d)) + b (y r, s),
  the specification `Cert.Moe.G`.

  Two operations do not read one element of each operand: the reduce by `and` over a size-one axis (an array of 1s
  reduces to 1s), and the gather, with one batching axis (the row), one collapsed axis (the domain, which the start
  index names) and one offset axis (the column).
-/
import proofs.«426170_j90460601188411_3_alg».proof.Proof.RefRead
import proofs.«426170_j90460601188411_3_alg».proof.Proof.Spec
import proofs.«426170_j90460601188411_3_alg».proof.Proof.Words
import Idealize.ShloMosaic.Lib.ValueIdx
import Idealize.ShloMosaic.PureOps.Reduce

noncomputable section

namespace Cert.Moe.Ref

open Idealize.ShloMosaic Idealize.ShloMosaic.ValueIdx Cert.ReferenceIdeal Cert.ReferenceIdeal.Read
open scoped BigOperators

variable [Cert.ReferenceIdeal.Facts]

/-! ## The reduce by `and` and the gather, at an index -/

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_one f hf l

/-- A reduce by `and` of an array of 1s from the initial value 1 is 1 everywhere. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  exact foldl_andi_one x hx _

/-- The gather of `take_along_axis` read at `(r, 0, s)`: row `r` of the operand at the start index `idx[r, 0, 0]`, read
    signed and clamped into `[0, 7]`, and at column `s`. -/
theorem gather_apply {α : Type} {w : Nat} (x : S16384x8x128.Idx → α) (idx : IVec S16384x1x1 w) (r : Fin 16384) (s : Fin 128) :
    Host.gather gather_S16384x8x128_S16384x1x1_S16384x1x128_2_1_0_0_1_2_11128 x idx (ix3 r (0 : Fin 1) s)
      = x (ix3 r (⟨min (idx (ix3 r (0 : Fin 1) (0 : Fin 1))).toInt.toNat 7, by omega⟩ : Fin 8) s) := by
  have h0 : gather_S16384x8x128_S16384x1x1_S16384x1x128_2_1_0_0_1_2_11128.start (ix3 r (0 : Fin 1) s) idx (0 : Fin S16384x8x128.rank)
      + gather_S16384x8x128_S16384x1x1_S16384x1x128_2_1_0_0_1_2_11128.batchCoord (ix3 r (0 : Fin 1) s) (0 : Fin S16384x8x128.rank)
      + gather_S16384x8x128_S16384x1x1_S16384x1x128_2_1_0_0_1_2_11128.offCoord (ix3 r (0 : Fin 1) s) (0 : Fin S16384x8x128.rank) = r.val := by
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  have h1 : gather_S16384x8x128_S16384x1x1_S16384x1x128_2_1_0_0_1_2_11128.start (ix3 r (0 : Fin 1) s) idx (1 : Fin S16384x8x128.rank)
      + gather_S16384x8x128_S16384x1x1_S16384x1x128_2_1_0_0_1_2_11128.batchCoord (ix3 r (0 : Fin 1) s) (1 : Fin S16384x8x128.rank)
      + gather_S16384x8x128_S16384x1x1_S16384x1x128_2_1_0_0_1_2_11128.offCoord (ix3 r (0 : Fin 1) s) (1 : Fin S16384x8x128.rank)
        = min (idx (ix3 r (0 : Fin 1) (0 : Fin 1))).toInt.toNat 7 := by
    rw [GatherDims.batchCoord_eq_zero _ _ _ (show (1 : Fin 3) ∉ ([0] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (1 : Fin S16384x8x128.rank) ∈ gather_S16384x8x128_S16384x1x1_S16384x1x128_2_1_0_0_1_2_11128.startIndexMap from List.mem_singleton.mpr rfl)]
    have hsi : gather_S16384x8x128_S16384x1x1_S16384x1x128_2_1_0_0_1_2_11128.siIdx (ix3 r (0 : Fin 1) s)
        ⟨List.idxOf (1 : Fin S16384x8x128.rank) gather_S16384x8x128_S16384x1x1_S16384x1x128_2_1_0_0_1_2_11128.startIndexMap,
          List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl
  have h2 : gather_S16384x8x128_S16384x1x1_S16384x1x128_2_1_0_0_1_2_11128.start (ix3 r (0 : Fin 1) s) idx (2 : Fin S16384x8x128.rank)
      + gather_S16384x8x128_S16384x1x1_S16384x1x128_2_1_0_0_1_2_11128.batchCoord (ix3 r (0 : Fin 1) s) (2 : Fin S16384x8x128.rank)
      + gather_S16384x8x128_S16384x1x1_S16384x1x128_2_1_0_0_1_2_11128.offCoord (ix3 r (0 : Fin 1) s) (2 : Fin S16384x8x128.rank) = s.val := by
    rw [GatherDims.batchCoord_eq_zero _ _ _ (show (2 : Fin 3) ∉ ([0] : List (Fin 3)) by decide)]
    unfold GatherDims.start
    rw [dif_neg (show ¬ (2 : Fin S16384x8x128.rank) ∈ gather_S16384x8x128_S16384x1x1_S16384x1x128_2_1_0_0_1_2_11128.startIndexMap from
      (show (2 : Fin 3) ∉ ([1] : List (Fin 3)) by decide))]
    simp only [Nat.add_zero, Nat.zero_add]
    rfl
  unfold Host.gather
  congr 1
  funext a
  refine Fin.ext ?_
  match a with
  | ⟨0, _⟩ => exact h0
  | ⟨1, _⟩ => exact h1
  | ⟨2, _⟩ => exact h2

/-! ## The integer side: the label, wrapped, tested and clamped -/

/-- The wrapped label at the start index of row `r` is the numeral of the row's domain. -/
theorem wrapped_label (x1 : (⟨S16384, .i32⟩ : BufTy).Contents (Elt Ideal)) (hy : Cert.Moe.InRange x1)
    (r : Fin 16384) (a b : Fin 1) :
    val_main_call0_v4 (F := Ideal) x1 (ix3 r a b) = BitVec.ofNat 32 ((Cert.Moe.dom x1 r : Fin 8) : Nat) := by
  have hi : idx_main_v4 (ix3 r a b) = ix1 r := funext fun c => match c with | ⟨0, _⟩ => rfl
  rw [val_main_call0_v4_apply, val_main_call0_v1_apply, val_main_call0_v3_apply, val_main_v4_apply,
    val_main_call0_v0_apply, val_main_call0_c_apply, val_main_call0_v2_apply, val_main_call0_c_0_apply, hi,
    Cert.Moe.label_eq x1 hy r]
  exact Words.wrap_label _

/-- The range test `0 ≤ · ≤ 7` of the wrapped label passes at every index. -/
theorem inrange_one (x1 : (⟨S16384, .i32⟩ : BufTy).Contents (Elt Ideal)) (hy : Cert.Moe.InRange x1) (i : S16384x1x1.Idx) :
    val_main_call0_v10 (F := Ideal) x1 i = 1#1 := by
  obtain ⟨r, a, b, rfl⟩ : ∃ (r : Fin 16384) (a b : Fin 1), i = ix3 r a b := ⟨i 0, i 1, i 2, eq_ix3 i⟩
  rw [val_main_call0_v10_apply, val_main_call0_v6_apply, val_main_call0_v9_apply, wrapped_label x1 hy r a b,
    val_main_call0_v5_apply, val_main_call0_c_2_apply, val_main_call0_v8_apply, val_main_call0_v7_apply,
    val_main_call0_c_1_apply]
  exact Words.inrange_label _

/-- So its reduce by `and` over the index vector's axis is 1 at every row. -/
theorem reduced_one (x1 : (⟨S16384, .i32⟩ : BufTy).Contents (Elt Ideal)) (hy : Cert.Moe.InRange x1) (j : S16384x1.Idx) :
    val_main_call0_v11 (F := Ideal) x1 j = 1#1 := by
  unfold val_main_call0_v11
  exact reduce_andi_one _ _ _ _ j (inrange_one x1 hy) (fun _ => rfl)

/-! ## The float side -/

/-- The select keeps the gathered value: its condition is 1. -/
theorem v5_at (x0 : (⟨S16384x2048, .f32⟩ : BufTy).Contents (Elt Ideal)) (x1 : (⟨S16384, .i32⟩ : BufTy).Contents (Elt Ideal))
    (x2 : (⟨S8x128x2048, .f32⟩ : BufTy).Contents (Elt Ideal)) (x3 : (⟨S8x128, .f32⟩ : BufTy).Contents (Elt Ideal))
    (hy : Cert.Moe.InRange x1) (r : Fin 16384) (s : Fin 128) :
    val_main_v5 (F := Ideal) x0 x1 x2 x3 (ix3 r (0 : Fin 1) s)
      = val_main_call0_v12 (F := Ideal) x0 x1 x2 x3 (ix3 r (0 : Fin 1) s) := by
  rw [val_main_v5_apply, val_main_call0_v13_apply, reduced_one x1 hy, select_one]

/-- The gather reads the projections of row `r` at the row's own domain. -/
theorem v12_at (x0 : (⟨S16384x2048, .f32⟩ : BufTy).Contents (Elt Ideal)) (x1 : (⟨S16384, .i32⟩ : BufTy).Contents (Elt Ideal))
    (x2 : (⟨S8x128x2048, .f32⟩ : BufTy).Contents (Elt Ideal)) (x3 : (⟨S8x128, .f32⟩ : BufTy).Contents (Elt Ideal))
    (hy : Cert.Moe.InRange x1) (r : Fin 16384) (s : Fin 128) :
    val_main_call0_v12 (F := Ideal) x0 x1 x2 x3 (ix3 r (0 : Fin 1) s)
      = val_main_v3 (F := Ideal) x0 x2 x3 (ix3 r (Cert.Moe.dom x1 r) s) := by
  have hk : (⟨min (val_main_call0_v4 (F := Ideal) x1 (ix3 r (0 : Fin 1) (0 : Fin 1))).toInt.toNat 7, by omega⟩ : Fin 8)
      = Cert.Moe.dom x1 r := Fin.ext (by
    show min (val_main_call0_v4 (F := Ideal) x1 (ix3 r (0 : Fin 1) (0 : Fin 1))).toInt.toNat 7 = _
    rw [wrapped_label x1 hy r 0 0]
    exact Words.clamp_label _)
  unfold val_main_call0_v12
  rw [gather_apply, hk]

/-- The projections plus the biases at `(r, k, s)`: the sum over the features plus domain `k`'s bias. -/
theorem v3_at (x0 : (⟨S16384x2048, .f32⟩ : BufTy).Contents (Elt Ideal)) (x2 : (⟨S8x128x2048, .f32⟩ : BufTy).Contents (Elt Ideal))
    (x3 : (⟨S8x128, .f32⟩ : BufTy).Contents (Elt Ideal)) (r : Fin 16384) (k : Fin 8) (s : Fin 128) :
    val_main_v3 (F := Ideal) x0 x2 x3 (ix3 r k s)
      = (∑ d : Fin 2048, x0 (ix2 r d) * x2 (ix3 k s d)) + x3 (ix2 k s) := by
  have hl : ∀ d : Fin 2048, lidx_main_v0 (ix3 r k s) d = ix2 r d := fun d => funext fun a => Fin.ext (by
    match a with
    | ⟨0, _⟩ => rfl
    | ⟨1, _⟩ => rfl)
  have hr : ∀ d : Fin 2048, ridx_main_v0 (ix3 r k s) d = ix3 k s d := fun d => funext fun a => Fin.ext (by
    match a with
    | ⟨0, _⟩ => rfl
    | ⟨1, _⟩ => rfl
    | ⟨2, _⟩ => rfl)
  have hb : idx_main_v1 (idx_main_v2 (ix3 r k s)) = ix2 k s := funext fun a => Fin.ext (by
    match a with
    | ⟨0, _⟩ => rfl
    | ⟨1, _⟩ => rfl)
  rw [val_main_v3_apply, val_main_v0_apply, val_main_v2_apply, val_main_v1_apply, hb, Ideal.addf_def]
  congr 1
  exact Finset.sum_congr rfl fun d _ => by rw [hl, hr]

/-! ## The reference is the specification -/

open Idealize.ShloMosaic Cert.ReferenceIdeal in
theorem ref_eq (x0 : (⟨S16384x2048, .f32⟩ : BufTy).Contents (Elt Ideal)) (x1 : (⟨S16384, .i32⟩ : BufTy).Contents (Elt Ideal))
    (x2 : (⟨S8x128x2048, .f32⟩ : BufTy).Contents (Elt Ideal)) (x3 : (⟨S8x128, .f32⟩ : BufTy).Contents (Elt Ideal))
    (hy : Cert.Moe.InRange x1) :
    Cert.ReferenceIdeal.Read.val_main_v6 (F := Ideal) x0 x1 x2 x3 = Cert.Moe.G x0 x1 x2 x3 := by
  funext i
  obtain ⟨r, s, rfl⟩ : ∃ (r : Fin 16384) (s : Fin 128), i = ValueIdx.ix2 r s := ⟨i 0, i 1, ValueIdx.eq_ix2 i⟩
  have h6 : Read.idx_main_v6 (ValueIdx.ix2 r s) = ValueIdx.ix3 r (0 : Fin 1) s := funext fun a => Fin.ext (by
    have hs : s.val < 128 := s.isLt
    match a with
    | ⟨0, _⟩ => show (r.val * 128 + s.val) / 128 = r.val; omega
    | ⟨1, _⟩ => rfl
    | ⟨2, _⟩ => show (r.val * 128 + s.val) % 128 = s.val; omega)
  rw [Read.val_main_v6_apply, h6, v5_at x0 x1 x2 x3 hy, v12_at x0 x1 x2 x3 hy, v3_at]
  exact (Cert.Moe.G_apply x0 x1 x2 x3 r s).symm

end Cert.Moe.Ref

end
-- ==== Proof.Select.lean ====
/-
  One selected term. Two facts about sums of extended reals in which all terms but one vanish.

  A row's label `y` picks one of eight domains. The kernel reaches the picked bias as the product of a one-hot row
  with the bias table, `∑ k, [k = y] · b k`, and the picked projection as a chain of eight additions of columns
  masked to zero off the label. Zero is neutral for the sum and absorbing for the product on every extended real,
  the infinities included, so both are the picked entry alone; no finiteness is needed.
-/
import Mathlib.Data.EReal.Basic
import Mathlib.Algebra.BigOperators.Fin
import Mathlib.Tactic.FinCases

namespace Cert.Moe.Select

open scoped BigOperators

/-- The product of a one-hot row with a column is the column's entry at the hot position. -/
theorem onehot_sum (y : Fin 8) (b : Fin 8 → EReal) :
    ∑ k : Fin 8, (if k = y then (1 : EReal) else 0) * b k = b y := by
  rw [Finset.sum_eq_single y]
  · simp
  · intro k _ hk; simp [hk]
  · intro h; exact absurd (Finset.mem_univ y) h

/-- Adding the eight masked columns to a start value, one after the other, adds the one unmasked column. -/
theorem masked_chain (y : Fin 8) (a : EReal) (d : Fin 8 → EReal) :
    a + (if (0 : Fin 8) = y then d 0 else 0) + (if (1 : Fin 8) = y then d 1 else 0) + (if (2 : Fin 8) = y then d 2 else 0)
      + (if (3 : Fin 8) = y then d 3 else 0) + (if (4 : Fin 8) = y then d 4 else 0) + (if (5 : Fin 8) = y then d 5 else 0)
      + (if (6 : Fin 8) = y then d 6 else 0) + (if (7 : Fin 8) = y then d 7 else 0) = a + d y := by
  fin_cases y <;> simp

end Cert.Moe.Select
-- ==== Proof.Body.lean ====
/-
  The kernel's body at one element.

  At a grid point the body holds a block of 1024 feature rows `x0`, their labels `x1` (already clamped), all eight
  projection matrices side by side as one 2048 × 1024 matrix `x2` (column `k·128 + s` is row `s` of domain `k`) and the
  8 × 128 bias table `x3`. It multiplies the rows by all 1024 columns, keeps in each row only the 128 columns of the row's
  own domain (a lane's domain is its column index divided by 128), adds the eight 128-wide column groups together, and
  starts that sum from the bias of the row's domain, obtained as the product of the row's one-hot label with the bias table.
  For a row whose label is `y`, element `s` of the result is therefore `x3 (y, s) + ∑ d, x0 (p, d) · x2 (d, y·128 + s)`.
-/
import proofs.«426170_j90460601188411_3_alg».proof.Proof.Gen.KernelIdeal.Frame
import proofs.«426170_j90460601188411_3_alg».proof.Proof.Words
import proofs.«426170_j90460601188411_3_alg».proof.Proof.Select
import Idealize.ShloMosaic.Lib.ValueIdx
import Idealize.ShloMosaic.Lib.ValueLayout
import Idealize.ShloMosaic.Lib.Pipeline.Value
import Idealize.ShloMosaic.PureOps.Ideal.Laws

noncomputable section

namespace Cert.Moe.Body

open Idealize.ShloMosaic Idealize.ShloMosaic.ValueIdx Cert.KernelIdeal Cert.KernelIdeal.Gen
open scoped BigOperators

/-- Column `k·128 + s` of the 1024 product columns: entry `s` of domain `k`. -/
abbrev col (k : Fin 8) (s : Fin 128) : Fin 1024 := ⟨k.val * 128 + s.val, by omega⟩

/-! ## The two matrix products at an index -/

theorem big_lhs_0 (i : S1024x1024.Idx) (q : dot_S1024x2048_S2048x1024_S1024x1024_1_0_0_1_n_n.contr.Idx) :
    (dot_S1024x2048_S2048x1024_S1024x1024_1_0_0_1_n_n.lhsIdx i q 0).val = (i 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem big_lhs_1 (i : S1024x1024.Idx) (q : dot_S1024x2048_S2048x1024_S1024x1024_1_0_0_1_n_n.contr.Idx) :
    (dot_S1024x2048_S2048x1024_S1024x1024_1_0_0_1_n_n.lhsIdx i q 1).val = (q ⟨0, by decide⟩).val :=
  dot_S1024x2048_S2048x1024_S1024x1024_1_0_0_1_n_n.lhsIdx_val_of_single rfl i q
theorem big_rhs_0 (i : S1024x1024.Idx) (q : dot_S1024x2048_S2048x1024_S1024x1024_1_0_0_1_n_n.contr.Idx) :
    (dot_S1024x2048_S2048x1024_S1024x1024_1_0_0_1_n_n.rhsIdx i q 0).val = (q ⟨0, by decide⟩).val :=
  dot_S1024x2048_S2048x1024_S1024x1024_1_0_0_1_n_n.rhsIdx_val_of_single rfl i q
theorem big_rhs_1 (i : S1024x1024.Idx) (q : dot_S1024x2048_S2048x1024_S1024x1024_1_0_0_1_n_n.contr.Idx) :
    (dot_S1024x2048_S2048x1024_S1024x1024_1_0_0_1_n_n.rhsIdx i q 1).val = (i 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- The product of the feature rows with all 1024 columns, at (p, c): the row times the column. -/
theorem proj_apply (x0 : Vec Ideal S1024x2048 .f32) (x2 : Vec Ideal S2048x1024 .bf16) (p c : Fin 1024) :
    k0_pay2 x0 x2 (ix2 p c) = ∑ d : Fin 2048, x0 (ix2 p d) * x2 (ix2 d c) := by
  unfold k0_pay2
  simp only [matmul]
  rw [Ideal.matmul_constant_zero_apply, ← Equiv.sum_comp (contrEquiv1 dot_S1024x2048_S2048x1024_S1024x1024_1_0_0_1_n_n 2048 rfl rfl).symm]
  refine Finset.sum_congr rfl fun d _ => ?_
  have hk := contrEquiv1_symm_val dot_S1024x2048_S2048x1024_S1024x1024_1_0_0_1_n_n 2048 rfl rfl d
  have el : dot_S1024x2048_S2048x1024_S1024x1024_1_0_0_1_n_n.lhsIdx (ix2 p c) ((contrEquiv1 dot_S1024x2048_S2048x1024_S1024x1024_1_0_0_1_n_n 2048 rfl rfl).symm d) = ix2 p d := funext fun a => Fin.ext (by
    match a with
    | ⟨0, _⟩ => exact big_lhs_0 _ _
    | ⟨1, _⟩ => exact (big_lhs_1 _ _).trans hk)
  have er : dot_S1024x2048_S2048x1024_S1024x1024_1_0_0_1_n_n.rhsIdx (ix2 p c) ((contrEquiv1 dot_S1024x2048_S2048x1024_S1024x1024_1_0_0_1_n_n 2048 rfl rfl).symm d) = ix2 d c := funext fun a => Fin.ext (by
    match a with
    | ⟨0, _⟩ => exact (big_rhs_0 _ _).trans hk
    | ⟨1, _⟩ => exact big_rhs_1 _ _)
  rw [el, er, shapeCast_self]
  rfl

theorem small_lhs_0 (i : S1024x128.Idx) (q : dot_S1024x8_S8x128_S1024x128_1_0_0_1_n_n.contr.Idx) :
    (dot_S1024x8_S8x128_S1024x128_1_0_0_1_n_n.lhsIdx i q 0).val = (i 0).val := by
  unfold DotDims.lhsIdx
  rw [dif_neg (show ¬(0 : Fin S1024x8.rank) ∈ dot_S1024x8_S8x128_S1024x128_1_0_0_1_n_n.lhsBatch by decide), dif_pos (show (0 : Fin S1024x8.rank) ∈ dot_S1024x8_S8x128_S1024x128_1_0_0_1_n_n.lhsNonContracting by decide)]
  rfl
theorem small_lhs_1 (i : S1024x128.Idx) (q : dot_S1024x8_S8x128_S1024x128_1_0_0_1_n_n.contr.Idx) :
    (dot_S1024x8_S8x128_S1024x128_1_0_0_1_n_n.lhsIdx i q 1).val = (q ⟨0, by decide⟩).val :=
  dot_S1024x8_S8x128_S1024x128_1_0_0_1_n_n.lhsIdx_val_of_single rfl i q
theorem small_rhs_0 (i : S1024x128.Idx) (q : dot_S1024x8_S8x128_S1024x128_1_0_0_1_n_n.contr.Idx) :
    (dot_S1024x8_S8x128_S1024x128_1_0_0_1_n_n.rhsIdx i q 0).val = (q ⟨0, by decide⟩).val :=
  dot_S1024x8_S8x128_S1024x128_1_0_0_1_n_n.rhsIdx_val_of_single rfl i q
theorem small_rhs_1 (i : S1024x128.Idx) (q : dot_S1024x8_S8x128_S1024x128_1_0_0_1_n_n.contr.Idx) :
    (dot_S1024x8_S8x128_S1024x128_1_0_0_1_n_n.rhsIdx i q 1).val = (i 1).val := by
  unfold DotDims.rhsIdx
  rw [dif_neg (show ¬(1 : Fin S8x128.rank) ∈ dot_S1024x8_S8x128_S1024x128_1_0_0_1_n_n.rhsBatch by decide), dif_pos (show (1 : Fin S8x128.rank) ∈ dot_S1024x8_S8x128_S1024x128_1_0_0_1_n_n.rhsNonContracting by decide)]
  rfl

/-- The product of a [1024, 8] matrix with the [8, 128] bias table into the zero accumulator, at (p, s). -/
theorem bias_apply (u : FVec Ideal S1024x8 .bf16) (v : FVec Ideal S8x128 .bf16) (p : Fin 1024) (s : Fin 128) :
    matmul dot_S1024x8_S8x128_S1024x128_1_0_0_1_n_n none u v (constant S1024x128 .f32 0x00000000#32) (ix2 p s)
      = ∑ k : Fin 8, u (ix2 p k) * v (ix2 k s) := by
  simp only [matmul]
  rw [Ideal.matmul_constant_zero_apply, ← Equiv.sum_comp (contrEquiv1 dot_S1024x8_S8x128_S1024x128_1_0_0_1_n_n 8 rfl rfl).symm]
  refine Finset.sum_congr rfl fun k _ => ?_
  have hk := contrEquiv1_symm_val dot_S1024x8_S8x128_S1024x128_1_0_0_1_n_n 8 rfl rfl k
  have el : dot_S1024x8_S8x128_S1024x128_1_0_0_1_n_n.lhsIdx (ix2 p s) ((contrEquiv1 dot_S1024x8_S8x128_S1024x128_1_0_0_1_n_n 8 rfl rfl).symm k) = ix2 p k := funext fun a => Fin.ext (by
    match a with
    | ⟨0, _⟩ => exact small_lhs_0 _ _
    | ⟨1, _⟩ => exact (small_lhs_1 _ _).trans hk)
  have er : dot_S1024x8_S8x128_S1024x128_1_0_0_1_n_n.rhsIdx (ix2 p s) ((contrEquiv1 dot_S1024x8_S8x128_S1024x128_1_0_0_1_n_n 8 rfl rfl).symm k) = ix2 k s := funext fun a => Fin.ext (by
    match a with
    | ⟨0, _⟩ => exact (small_rhs_0 _ _).trans hk
    | ⟨1, _⟩ => exact small_rhs_1 _ _)
  rw [el, er]

/-! ## The lane mask and the one-hot label -/

/-- The label column, broadcast along the 1024 lanes, reads the row's label at every lane. -/
theorem bcast_lanes (v : IVec S1024x1 32) (p c : Fin 1024) :
    broadcastTo S1024x1024 v broadcasts_S1024x1_S1024x1024 (ix2 p c) = v (ix2 p 0) :=
  broadcastTo_apply v broadcasts_S1024x1_S1024x1024 (ix2 p c) (ix2 p 0) (fun a => match a with
    | ⟨0, _⟩ => by show p.val = if (1024 : Nat) = 1 then 0 else p.val; rw [if_neg (by decide)]
    | ⟨1, _⟩ => by show 0 = if (1 : Nat) = 1 then 0 else c.val; rw [if_pos rfl])

/-- Broadcast along the 8 domain positions likewise. -/
theorem bcast_doms (v : IVec S1024x1 32) (p : Fin 1024) (k : Fin 8) :
    broadcastTo S1024x8 v broadcasts_S1024x1_S1024x8 (ix2 p k) = v (ix2 p 0) :=
  broadcastTo_apply v broadcasts_S1024x1_S1024x8 (ix2 p k) (ix2 p 0) (fun a => match a with
    | ⟨0, _⟩ => by show p.val = if (1024 : Nat) = 1 then 0 else p.val; rw [if_neg (by decide)]
    | ⟨1, _⟩ => by show 0 = if (1 : Nat) = 1 then 0 else k.val; rw [if_pos rfl])

/-- The mask at row p, lane c: "lane c's domain is the row's label". -/
theorem mask_apply (x1 : Vec Ideal S1024x1 .i32) (p c : Fin 1024) :
    k0_pay4 x1 (ix2 p c) = IntOp.cmpi .eq (BitVec.ofNat 32 (c.val / 128)) (x1 (ix2 p 0)) := by
  have h1 : k0_pay4 x1 (ix2 p c) = IntOp.cmpi .eq (Words.laneDomain (BitVec.ofNat 32 (0 * 1024 + c.val)))
      (broadcastTo S1024x1024 (shapeCast S1024x1 x1 shapeCasts_S1024x1_S1024x1) broadcasts_S1024x1_S1024x1024 (ix2 p c)) := rfl
  rw [h1, Words.laneDomain_lane, bcast_lanes, shapeCast_self]

/-- A one-bit word widened and converted is 1 for the set bit and 0 for the clear one. -/
theorem bit_toEReal (b : BitVec 1) : (((b.setWidth 32).toInt : ℝ) : EReal) = if b = 1#1 then 1 else 0 := by
  rcases BitVec.eq_zero_or_eq_one b with h | h
  · subst h
    have e : ((0#1 : BitVec 1).setWidth 32).toInt = 0 := by decide
    rw [e, if_neg (by decide)]; simp
  · subst h
    have e : ((1#1 : BitVec 1).setWidth 32).toInt = 1 := by decide
    rw [e, if_pos rfl]; simp

/-- The one-hot label at row p, position k: 1 where k is the row's label, else 0. -/
theorem onehot_apply (x1 : Vec Ideal S1024x1 .i32) (p : Fin 1024) (k : Fin 8) :
    k0_pay5 (F := Ideal) x1 (ix2 p k) = if IntOp.cmpi .eq (BitVec.ofNat 32 k.val) (x1 (ix2 p 0)) = 1#1 then (1 : EReal) else 0 := by
  have h1 : k0_pay5 (F := Ideal) x1 (ix2 p k) = ((((IntOp.cmpi .eq (BitVec.ofNat 32 (0 * 8 + k.val))
      (broadcastTo S1024x8 (shapeCast S1024x1 x1 shapeCasts_S1024x1_S1024x1) broadcasts_S1024x1_S1024x8 (ix2 p k))).setWidth 32).toInt : ℝ) : EReal) := rfl
  rw [h1, bit_toEReal, bcast_doms, shapeCast_self, Nat.zero_mul, Nat.zero_add]

/-! ## The stored value at an index -/

theorem col_div (k : Fin 8) (s : Fin 128) : (k.val * 128 + s.val) / 128 = k.val := by
  have := s.isLt; omega

theorem select_ite {α : Type} (c : Prop) [Decidable c] (a z : α) :
    Scalar.select (if c then 1#1 else 0#1) a z = if c then a else z := by
  by_cases h : c
  · rw [if_pos h, if_pos h]; exact select_one a z
  · rw [if_neg h, if_neg h]; exact select_zero a z

/-- The body's stored value as the bias product plus the eight masked column groups, added in order. -/
theorem pay1_apply (v4 : FVec Ideal S1024x1024 .f32) (v33 : IVec S1024x1024 1) (v39 : FVec Ideal S1024x8 .bf16)
    (v41 : FVec Ideal S8x128 .bf16) (p : Fin 1024) (s : Fin 128) :
    k0_pay1 v4 v33 v39 v41 (constant S1024x128 .f32 0x00000000#32) (ix2 p s)
      = (∑ k : Fin 8, v39 (ix2 p k) * v41 (ix2 k s))
        + Scalar.select (v33 (ix2 p (col 0 s))) (v4 (ix2 p (col 0 s))) 0
        + Scalar.select (v33 (ix2 p (col 1 s))) (v4 (ix2 p (col 1 s))) 0
        + Scalar.select (v33 (ix2 p (col 2 s))) (v4 (ix2 p (col 2 s))) 0
        + Scalar.select (v33 (ix2 p (col 3 s))) (v4 (ix2 p (col 3 s))) 0
        + Scalar.select (v33 (ix2 p (col 4 s))) (v4 (ix2 p (col 4 s))) 0
        + Scalar.select (v33 (ix2 p (col 5 s))) (v4 (ix2 p (col 5 s))) 0
        + Scalar.select (v33 (ix2 p (col 6 s))) (v4 (ix2 p (col 6 s))) 0
        + Scalar.select (v33 (ix2 p (col 7 s))) (v4 (ix2 p (col 7 s))) 0 := by
  unfold k0_pay1
  simp only [addf_apply, slice2_axis1_eq, select_apply, broadcast_apply, bias_apply]
  have hz : (Scalar.ofBits (F := Ideal) .f32 0x00000000#32 : EReal) = 0 := Ideal.ofBits_zero_f32
  rw [hz]
  rfl

/-- ONE ELEMENT OF THE BODY'S RESULT, for a row whose label is `y`: the bias of domain `y` plus the row's projection by
    domain `y`'s matrix. -/
theorem body_apply (x0 : Vec Ideal S1024x2048 .f32) (x1 : Vec Ideal S1024x1 .i32) (x2 : Vec Ideal S2048x1024 .bf16)
    (x3 : Vec Ideal S8x128 .bf16) (p : Fin 1024) (s : Fin 128) (y : Fin 8) (hy : x1 (ix2 p 0) = BitVec.ofNat 32 y.val) :
    k0_pay1 (k0_pay2 x0 x2) (k0_pay4 x1) (k0_pay5 x1) (k0_pay6 x3) (constant S1024x128 .f32 0x00000000#32) (ix2 p s)
      = x3 (ix2 y s) + ∑ d : Fin 2048, x0 (ix2 p d) * x2 (ix2 d (col y s)) := by
  rw [pay1_apply]
  simp only [mask_apply, col_div, hy, Words.eq_label, select_ite, proj_apply, onehot_apply]
  have hb : (∑ k : Fin 8, (if (if k = y then (1#1 : BitVec 1) else 0#1) = 1#1 then (1 : EReal) else 0) * k0_pay6 x3 (ix2 k s)) = x3 (ix2 y s) := by
    have e : ∀ k : Fin 8, (if (if k = y then (1#1 : BitVec 1) else 0#1) = 1#1 then (1 : EReal) else 0) = if k = y then 1 else 0 := by
      intro k; by_cases h : k = y
      · rw [if_pos h, if_pos rfl, if_pos h]
      · rw [if_neg h, if_neg (by decide), if_neg h]
    simp only [e]
    exact Select.onehot_sum y (fun k => k0_pay6 x3 (ix2 k s)) |>.trans (by unfold k0_pay6; rw [shapeCast_self])
  rw [hb]
  exact Select.masked_chain y _ (fun k => ∑ d : Fin 2048, x0 (ix2 p d) * x2 (ix2 d (col k s)))

end Cert.Moe.Body

end
-- ==== Proof.Blocks.lean ====
/-
  From blocks to the array. The kernel runs its body at 16 grid points; point `t` sees rows `t·1024 … t·1024 + 1023`
  of the features and of the (clamped) labels, the whole re-laid projection matrix and the whole bias table, and writes
  back rows `t·1024 …` of the result. The re-laid matrix is the stack of the eight domain matrices read as one
  1024 × 2048 matrix and transposed: its entry (d, k·128 + s) is `W (k, s, d)`. The clamp into [0, 7] fixes a label in
  range. So what point `t` writes back is block `t` of the specification `G`, the 16 blocks tile the result, and the
  result array after the run is `G` of the argument arrays.
-/
import proofs.«426170_j90460601188411_3_alg».proof.Proof.Gen.KernelIdeal.Value
import proofs.«426170_j90460601188411_3_alg».proof.Proof.Body
import proofs.«426170_j90460601188411_3_alg».proof.Proof.Spec
import Idealize.ShloMosaic.Lib.StableHlo.Run
import Idealize.ShloMosaic.Lib.ValueLayout

set_option maxRecDepth 16384

noncomputable section

namespace Cert.Moe.Kernel

open Idealize.ShloMosaic Idealize.ShloMosaic.TcCoe Idealize.SL.Sem Idealize.ShloMosaic.StableHlo Idealize.ShloMosaic.ValueIdx
open Cert.KernelIdeal Cert.KernelIdeal.Gen Cert.KernelIdeal.Value
open Idealize.ShloMosaic.Pipeline (Dat)
open scoped BigOperators

variable (m : (ℓ : Loc nD τ sig) → Buf (Elt Ideal) ℓ) (ρ : Dev nD → PrngReg)

/-! ## The arrays the region finds -/

/-- The label column the region stages: the labels clamped into [0, 7], as a column. -/
theorem labels_entry (c : Dev nD) : (V m c main_v1 : S16384x1.Idx → BitVec 32) =
    shapeCast S16384x1 (minsi (broadcastInDim S16384 ![] bcast_S_S16384 (constantI S_ 32 7#32))
      (maxsi (broadcastInDim S16384 ![] bcast_S_S16384 (constantI S_ 32 0#32)) (m ((c : Thread nD τ).loc main_arg1)))) shapeCasts_S16384_S16384x1 := by
  dsimp only [V]
  simp only [hostOps0, hostOps0_1, hostOps0_2, List.flatten_cons, List.flatten_nil, List.append_nil, List.cons_append, List.nil_append]
  after_results
  rfl

/-- The matrix the region stages: the eight domain matrices stacked, transposed. -/
theorem matrix_entry (c : Dev nD) : (V m c main_v4 : S2048x1024.Idx → EReal) =
    truncf (F := Ideal) .bf16 (transpose S2048x1024 [1, 0] (shapeCast S1024x2048 (m ((c : Thread nD τ).loc main_arg2)) shapeCasts_S8x128x2048_S1024x2048) transposes_S1024x2048_S2048x1024_1_0) bitsLt_bf16_f32 := by
  dsimp only [V]
  simp only [hostOps0, hostOps0_1, hostOps0_2, List.flatten_cons, List.flatten_nil, List.append_nil, List.cons_append, List.nil_append]
  after_results
  rfl

/-- The bias table the region stages is the argument's. -/
theorem bias_entry (c : Dev nD) : (V m c main_v5 : S8x128.Idx → EReal) =
    truncf (F := Ideal) .bf16 (m ((c : Thread nD τ).loc main_arg3)) bitsLt_bf16_f32 := by
  dsimp only [V]
  simp only [hostOps0, hostOps0_1, hostOps0_2, List.flatten_cons, List.flatten_nil, List.append_nil, List.cons_append, List.nil_append]
  after_results

/-- Row r of the staged label column is the clamp of label r. -/
theorem labels_entry_apply (c : Dev nD) (r : Fin 16384) :
    (V m c main_v1 : S16384x1.Idx → BitVec 32) (ix2 r 0)
      = IntOp.minsi 7#32 (IntOp.maxsi 0#32 (m ((c : Thread nD τ).loc main_arg1) (ix1 r))) := by
  rw [labels_entry]
  refine (shapeCast_apply _ shapeCasts_S16384_S16384x1 (ix2 r 0) (ix1 r) ?_).trans rfl
  rw [Shape.rowMajor_val_one, Shape.rowMajor_val_two]
  show r.val = r.val * 1 + 0
  omega

/-- Entry (d, k·128 + s) of the staged matrix is `W (k, s, d)`. -/
theorem matrix_entry_apply (c : Dev nD) (d : Fin 2048) (k : Fin 8) (s : Fin 128) :
    (V m c main_v4 : S2048x1024.Idx → EReal) (ix2 d (Body.col k s)) = m ((c : Thread nD τ).loc main_arg2) (ix3 k s d) := by
  rw [matrix_entry]
  show transpose S2048x1024 [1, 0] (shapeCast S1024x2048 (m ((c : Thread nD τ).loc main_arg2)) shapeCasts_S8x128x2048_S1024x2048) transposes_S1024x2048_S2048x1024_1_0 (ix2 d (Body.col k s)) = _
  refine (transpose_ix2_apply _ transposes_S1024x2048_S2048x1024_1_0 d (Body.col k s)).trans ?_
  refine shapeCast_apply _ shapeCasts_S8x128x2048_S1024x2048 (ix2 (Body.col k s) d) (ix3 k s d) ?_
  rw [Shape.rowMajor_val_three, Shape.rowMajor_val_two]
  show (k.val * 128 + s.val) * 2048 + d.val = (k.val * 128 + s.val) * 2048 + d.val
  rfl

/-- The staged bias table read at an index. -/
theorem bias_entry_apply (c : Dev nD) (k : Fin 8) (s : Fin 128) :
    (V m c main_v5 : S8x128.Idx → EReal) (ix2 k s) = m ((c : Thread nD τ).loc main_arg3) (ix2 k s) := by
  rw [bias_entry]; rfl

/-! ## The blocks at a grid point -/

theorem hz : (![0, 0] : Fin 2 → Nat) = fun _ => 0 := funext fun a => by fin_cases a <;> rfl

/-- Where each window's block sits at point `t`: the row-blocked windows at block row `t`, the resident ones at 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of point `t`'s blocks is row `t·1024 + p` of the arrays. -/
def row (t : Fin cfg0.N) (p : Fin 1024) : Fin 16384 :=
  ⟨t.val * 1024 + p.val, by have h : t.val < grid0.N := t.isLt; rw [N_0] at h; have := p.isLt; omega⟩

theorem emb0 (t : Fin cfg0.N) (p : Fin 1024) (d : Fin 2048) : ((cfg0.win 0).blk t).view.emb (ix2 p d) = ix2 (row t p) d := by
  obtain ⟨e00, e01, -⟩ := idx_facts t
  funext a; apply Fin.ext
  match a with
  | ⟨0, _⟩ => show win0_0.index t (0 : Fin 2) * 1024 + 1 * p.val = t.val * 1024 + p.val; rw [e00]; omega
  | ⟨1, _⟩ => show win0_0.index t (1 : Fin 2) * 2048 + 1 * d.val = d.val; rw [e01]; omega

theorem emb1 (t : Fin cfg0.N) (p : Fin 1024) : ((cfg0.win 1).blk t).view.emb (ix2 p 0) = ix2 (row t p) 0 := by
  obtain ⟨-, -, e10, e11, -⟩ := idx_facts t
  funext a; apply Fin.ext
  match a with
  | ⟨0, _⟩ => show win0_1.index t (0 : Fin 2) * 1024 + 1 * p.val = t.val * 1024 + p.val; rw [e10]; omega
  | ⟨1, _⟩ => show win0_1.index t (1 : Fin 2) * 1 + 1 * 0 = 0; rw [e11]

theorem emb2 (t : Fin cfg0.N) (d : Fin 2048) (c : Fin 1024) : ((cfg0.win 2).blk t).view.emb (ix2 d c) = ix2 d c := by
  obtain ⟨-, -, -, -, e20, e21, -⟩ := idx_facts t
  funext a; apply Fin.ext
  match a with
  | ⟨0, _⟩ => show win0_2.index t (0 : Fin 2) * 2048 + 1 * d.val = d.val; rw [e20]; omega
  | ⟨1, _⟩ => show win0_2.index t (1 : Fin 2) * 1024 + 1 * c.val = c.val; rw [e21]; omega

theorem emb3 (t : Fin cfg0.N) (k : Fin 8) (s : Fin 128) : ((cfg0.win 3).blk t).view.emb (ix2 k s) = ix2 k s := by
  obtain ⟨-, -, -, -, -, -, e30, e31, -⟩ := idx_facts t
  funext a; apply Fin.ext
  match a with
  | ⟨0, _⟩ => show win0_3.index t (0 : Fin 2) * 8 + 1 * k.val = k.val; rw [e30]; omega
  | ⟨1, _⟩ => show win0_3.index t (1 : Fin 2) * 128 + 1 * s.val = s.val; rw [e31]; omega

theorem emb4 (t : Fin cfg0.N) (p : Fin 1024) (s : Fin 128) : ((cfg0.win 4).blk t).view.emb (ix2 p s) = ix2 (row t p) s := by
  obtain ⟨-, -, -, -, -, -, -, -, e40, e41⟩ := idx_facts t
  funext a; apply Fin.ext
  match a with
  | ⟨0, _⟩ => show win0_4.index t (0 : Fin 2) * 1024 + 1 * p.val = t.val * 1024 + p.val; rw [e40]; omega
  | ⟨1, _⟩ => show win0_4.index t (1 : Fin 2) * 128 + 1 * s.val = s.val; rw [e41]; omega

/-- The four input blocks at point `t`, read at an index, in terms of the argument arrays. -/
theorem feat_blk (c : Dev nD) (t : Fin cfg0.N) (p : Fin 1024) (d : Fin 2048) :
    (iblk m c 0 t : S1024x2048.Idx → EReal) (ix2 p d) = m ((c : Thread nD τ).loc main_arg0) (ix2 (row t p) d) := by
  show V m c main_arg0 (((cfg0.win 0).blk t).view.emb (ix2 p d)) = _
  rw [emb0, V_main_arg0]

theorem label_blk (c : Dev nD) (t : Fin cfg0.N) (p : Fin 1024) :
    (iblk m c 1 t : S1024x1.Idx → BitVec 32) (ix2 p 0)
      = IntOp.minsi 7#32 (IntOp.maxsi 0#32 (m ((c : Thread nD τ).loc main_arg1) (ix1 (row t p)))) := by
  show (V m c main_v1 : S16384x1.Idx → BitVec 32) (((cfg0.win 1).blk t).view.emb (ix2 p 0)) = _
  rw [emb1, labels_entry_apply]

theorem matrix_blk (c : Dev nD) (t : Fin cfg0.N) (d : Fin 2048) (k : Fin 8) (s : Fin 128) :
    (iblk m c 2 t : S2048x1024.Idx → EReal) (ix2 d (Body.col k s)) = m ((c : Thread nD τ).loc main_arg2) (ix3 k s d) := by
  show (V m c main_v4 : S2048x1024.Idx → EReal) (((cfg0.win 2).blk t).view.emb (ix2 d (Body.col k s))) = _
  rw [emb2, matrix_entry_apply]

theorem bias_blk (c : Dev nD) (t : Fin cfg0.N) (k : Fin 8) (s : Fin 128) :
    (iblk m c 3 t : S8x128.Idx → EReal) (ix2 k s) = m ((c : Thread nD τ).loc main_arg3) (ix2 k s) := by
  show (V m c main_v5 : S8x128.Idx → EReal) (((cfg0.win 3).blk t).view.emb (ix2 k s)) = _
  rw [emb3, bias_entry_apply]

/-! ## What a point writes back, the cover, the array -/

/-- The specification of the argument arrays as launched. -/
abbrev spec (c : Dev nD) : S16384x128.Idx → EReal :=
  Cert.Moe.G (m ((c : Thread nD τ).loc main_arg0)) (m ((c : Thread nD τ).loc main_arg1)) (m ((c : Thread nD τ).loc main_arg2)) (m ((c : Thread nD τ).loc main_arg3))

/-- WHAT POINT `t` WRITES BACK is block `t` of the specification, the labels in range. -/
theorem flushed_eq (c : Dev nD) (hy : Cert.Moe.InRange (m ((c : Thread nD τ).loc main_arg1))) (t : Fin cfg0.N) :
    (dats m 0 c).flushed 4 t = ((cfg0.win 4).blk t).view.read (Elt Ideal) (spec m c) := by
  rw [Value.flushed4]
  unfold out0_4
  rw [View.canon_unit_zero hz]
  simp only [View.ld_unit_zero (S := S1024x2048) hz, View.ld_unit_zero (S := S1024x1) hz, View.ld_unit_zero (S := S2048x1024) hz, View.ld_unit_zero (S := S8x128) hz]
  funext j
  obtain ⟨p, s, rfl⟩ : ∃ (p : Fin 1024) (s : Fin 128), j = ix2 p s := ⟨j 0, j 1, eq_ix2 j⟩
  show k0_pay1 (k0_pay2 (iblk m c 0 t) (iblk m c 2 t)) (k0_pay4 (iblk m c 1 t)) (k0_pay5 (iblk m c 1 t)) (k0_pay6 (iblk m c 3 t)) (constant S1024x128 .f32 0x00000000#32) (ix2 p s)
    = spec m c (((cfg0.win 4).blk t).view.emb (ix2 p s))
  have hl : (iblk m c 1 t : S1024x1.Idx → BitVec 32) (ix2 p 0) = BitVec.ofNat 32 (Cert.Moe.dom (m ((c : Thread nD τ).loc main_arg1)) (row t p)).val := by
    rw [label_blk, Cert.Moe.label_eq _ hy (row t p)]
    exact Words.clip_label _
  rw [emb4]
  show _ = Cert.Moe.G (m ((c : Thread nD τ).loc main_arg0)) (m ((c : Thread nD τ).loc main_arg1)) (m ((c : Thread nD τ).loc main_arg2)) (m ((c : Thread nD τ).loc main_arg3)) (ix2 (row t p) s)
  rw [Cert.Moe.G_apply]
  generalize Cert.Moe.dom (m ((c : Thread nD τ).loc main_arg1)) (row t p) = k at hl ⊢
  refine (Body.body_apply (iblk m c 0 t) (iblk m c 1 t) (iblk m c 2 t) (iblk m c 3 t) p s k hl).trans ?_
  rw [bias_blk]
  refine (add_comm _ _).trans (congrArg (· + _) (Finset.sum_congr rfl fun d _ => ?_))
  rw [feat_blk, matrix_blk]

/-- An index of the result is in point `t`'s block iff each coordinate is in the block's range on its axis. -/
theorem mem_blk (t : Fin cfg0.N) (i : S16384x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v6).slice (win0_4.rect t)).set ↔ _
  rw [View.set_slice_whole, Rect.mem_set_unit]
  exact Iff.rfl

/-- Every row of the result lies in the block of the point its row number divided by 1024 names. -/
theorem cover (i : S16384x128.Idx) : ∃ t : Fin cfg0.N, (cfg0.win 4).flush t = true ∧ i ∈ ((cfg0.win 4).blk t).view.set := by
  have hi0 : (i 0).val < 16384 := (i 0).isLt
  have hi1 : (i 1).val < 128 := (i 1).isLt
  let t : Fin cfg0.N := ⟨(i 0).val / 1024, by show (i 0).val / 1024 < grid0.N; rw [N_0]; omega⟩
  obtain ⟨-, -, -, -, -, -, -, -, e40, e41⟩ := idx_facts t
  have ht : t.val = (i 0).val / 1024 := rfl
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; rw [e40, ht]; omega
  | ⟨1, _⟩ => show win0_4.index t (1 : Fin 2) * 128 ≤ (i 1).val ∧ (i 1).val < win0_4.index t (1 : Fin 2) * 128 + 128; rw [e41]; omega

/-- THE RESULT ARRAY after the run is the specification of the argument arrays. -/
theorem final (c : Dev nD) (hy : Cert.Moe.InRange (m ((c : Thread nD τ).loc main_arg1))) :
    (dats m 0 c).arrAt 4 cfg0.N = spec m c :=
  (dats m 0 c).arrAt_eq_of_cover 4 (spec m c) (fun t _ => flushed_eq m c hy t) cover

/-- The kernel's run, read: the result at the specification, the arguments unchanged. -/
theorem run (hy : ∀ c : Dev nD, Cert.Moe.InRange (m ((c : Thread nD τ).loc main_arg1))) :
    θ_run defs (onTc (τ := τ) (main (F := Ideal))) ⟨m, fun _ => 0, ρ⟩ fun r => ∀ c : Dev nD,
      r.2.mem ((c : Thread nD τ).loc main_v6) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hy c)), (h c).2⟩) (Value.run_blocks m ρ)

end Cert.Moe.Kernel

end
-- ==== Proof.PreRange.lean ====
/-
  The labels are in range. The precondition's last conjunct says `0 ≤ y r` and `y r < 8` (signed) of every label,
  under one conjunction over all rows; read back row by row it gives each label an unsigned value below 8.
-/
import proofs.«426170_j90460601188411_3_alg».proof.Pre_finite_inputs
import proofs.«426170_j90460601188411_3_alg».proof.Proof.Gen.Pre_finite_inputs
import proofs.«426170_j90460601188411_3_alg».proof.Proof.Spec
import proofs.«426170_j90460601188411_3_alg».proof.Proof.Words
import Idealize.ShloMosaic.Lib.ReduceAll

noncomputable section

namespace Cert.Moe.Pre

open Idealize.ShloMosaic Idealize.ShloMosaic.ValueIdx Cert.Pre_finite_inputs

instance : Subsingleton S_.Idx := ⟨fun a b => funext fun d => d.elim0⟩

/-- Where the precondition holds, every label is one of the eight domains. -/
theorem inRange_of_fn {F : FTy → Type} [FloatOps F] (a0 : FVec F S16384x2048 .f32) (a1 : IVec S16384 32)
    (a2 : FVec F S8x128x2048 .f32) (a3 : FVec F S8x128 .f32)
    (h : Cert.Pre_finite_inputs.fn (F := F) a0 a1 a2 a3 = fun _ => 1#1) : Cert.Moe.InRange a1 := by
  intro r
  have e := congrFun h ix0
  unfold Cert.Pre_finite_inputs.fn Cert.Pre_finite_inputs.fn_part1 at e
  dsimp only at e
  obtain ⟨-, h19⟩ := IntOp.andi_eq_one.1 e
  have hr := Host.reduce_andi_all _ _ _ _ ix0 h19 (ix1 r)
  obtain ⟨h15, h17⟩ := IntOp.andi_eq_one.1 hr
  exact Words.toNat_lt_of_signed _ h15 h17

end Cert.Moe.Pre

end
-- ==== Proof.lean ====
/-
  A mixture of eight linear heads with per-row selection. Each of 16384 feature rows `h r` (length 2048) carries a
  domain label `y r`; the result row is `W (y r) · h r + b (y r)`, with `W k` a 128 × 2048 matrix and `b k` a bias row.

  The reference applies all eight heads to every row and then picks head `y r` along the domain axis. The kernel works on
  blocks of 1024 rows: it multiplies the block by the eight matrices laid side by side (1024 columns), zeroes every column
  whose domain (column index divided by 128) is not the row's label, adds the eight 128-wide groups, and starts the sum
  from the bias obtained as one-hot(label) times the bias table. Over the extended reals zero is neutral for + and
  absorbing for ·, so the masked sums collapse to the selected head and both programs compute the same function
  (Proof/Spec.lean's `G`), up to the order of one addition. The two agree only for labels in [0, 8): outside it the
  reference wraps or fills and the kernel clamps, so the precondition says `0 ≤ y r < 8`, and the proof uses exactly that
  (Proof/PreRange.lean); finiteness of the float inputs is not needed.

  The frames of the two kernel programs are the generated ones; the reference's frame is its run with the result dropped.
-/
import proofs.«426170_j90460601188411_3_alg».proof.Defs
import proofs.«426170_j90460601188411_3_alg».proof.Proof.Gen.Kernel
import proofs.«426170_j90460601188411_3_alg».proof.Proof.Gen.Kernel.Skeleton
import proofs.«426170_j90460601188411_3_alg».proof.Proof.Gen.Kernel.Launch
import proofs.«426170_j90460601188411_3_alg».proof.Proof.Gen.Kernel.Points
import proofs.«426170_j90460601188411_3_alg».proof.Proof.Gen.Kernel.Frame
import proofs.«426170_j90460601188411_3_alg».proof.Proof.Gen.KernelIdeal
import proofs.«426170_j90460601188411_3_alg».proof.Proof.Gen.KernelIdeal.Skeleton
import proofs.«426170_j90460601188411_3_alg».proof.Proof.Gen.KernelIdeal.Launch
import proofs.«426170_j90460601188411_3_alg».proof.Proof.Gen.KernelIdeal.Points
import proofs.«426170_j90460601188411_3_alg».proof.Proof.Gen.KernelIdeal.Frame
import proofs.«426170_j90460601188411_3_alg».proof.Proof.Gen.ReferenceIdeal
import proofs.«426170_j90460601188411_3_alg».proof.Proof.Gen.Pre_finite_inputs
import proofs.«426170_j90460601188411_3_alg».proof.Proof.Gen.KernelIdeal.Value
import proofs.«426170_j90460601188411_3_alg».proof.Proof.RefRun
import proofs.«426170_j90460601188411_3_alg».proof.Proof.RefRead
import proofs.«426170_j90460601188411_3_alg».proof.Proof.RefValue
import proofs.«426170_j90460601188411_3_alg».proof.Proof.Blocks
import proofs.«426170_j90460601188411_3_alg».proof.Proof.PreRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- With every label in [0, 8), the kernel's result array ends at the selected head's output of the argument arrays
    (the blocks assembled), and the reference's result is the same function of arguments that agree. -/
theorem algebraic : Cert.algebraic_KernelIdeal_ReferenceIdeal := by
  intro m ρ m' ρ' hpre hagree
  have hy : ∀ c : Dev Cert.KernelIdeal.nD,
      Cert.Moe.InRange (m ((c.tc : Thread Cert.KernelIdeal.nD Cert.KernelIdeal.τ).loc Cert.KernelIdeal.main_arg1)) :=
    fun c => Cert.Moe.Pre.inRange_of_fn _ _ _ _ (hpre c)
  refine ⟨_, Cert.Moe.Kernel.run m ρ hy, ?_⟩
  refine (θ_run Cert.ReferenceIdeal.defs _ _).mono (fun _ h c => ⟨(h c).1.trans ?_, (h c).2⟩)
    (Cert.ReferenceIdeal.Value.run (F := Ideal) m' ρ')
  have h1 := (hagree c).2.1
  rw [Cert.ReferenceIdeal.Read.val_main_v6_eq, Cert.Moe.Ref.ref_eq _ _ _ _ (by rw [h1]; exact hy c),
    (hagree c).1, h1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
